-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x340 : Shape := ⟨2, ![65536, 340]⟩
abbrev S65536 : Shape := ⟨1, ![65536]⟩
abbrev S_ : Shape := ⟨0, ![]⟩

class Facts : Prop where
  bcast_S_S65536x340 : S_.BroadcastsInDim S65536x340 (![] : Fin 0 → Fin S65536x340.rank)
  reducesTo_S65536x340_S_d0_1 : S65536x340.ReducesTo [0, 1] S_
  h_S_ : 0 < S_.numel
  bcast_S_S65536 : S_.BroadcastsInDim S65536 (![] : Fin 0 → Fin S65536.rank)
  reducesTo_S65536_S_d0 : S65536.ReducesTo [0] S_

variable [Facts]

def fn {F : FTy → Type} [FloatOps F] (main_arg0 : FVec F S65536x340 .f32) (main_arg1 : IVec S65536 32) : IVec S_ 1 :=
  let main_v0 : FVec F S65536x340 .f32 := Host.absf main_arg0
  let main_cst : FVec F S_ .f32 := constant S_ .f32 0x7F800000#32
  let main_v1 : FVec F S65536x340 .f32 := broadcastInDim S65536x340 ![] bcast_S_S65536x340 main_cst
  let main_v2 : IVec S65536x340 1 := cmpf .olt main_v0 main_v1
  let main_c : IVec S_ 1 := constantI S_ 1 1#1
  let main_v3 : IVec S_ 1 := (fun x v => Host.reduce IntOp.andi x v reducesTo_S65536x340_S_d0_1 h_S_) main_v2 main_c
  let main_c_0 : IVec S_ 32 := constantI S_ 32 0#32
  let main_v4 : IVec S65536 32 := broadcastInDim S65536 ![] bcast_S_S65536 main_c_0
  let main_v5 : IVec S65536 1 := cmpi .sge main_arg1 main_v4
  let main_c_1 : IVec S_ 32 := constantI S_ 32 340#32
  let main_v6 : IVec S65536 32 := broadcastInDim S65536 ![] bcast_S_S65536 main_c_1
  let main_v7 : IVec S65536 1 := cmpi .slt main_arg1 main_v6
  let main_v8 : IVec S65536 1 := andi main_v5 main_v7
  let main_c_2 : IVec S_ 1 := constantI S_ 1 1#1
  let main_v9 : IVec S_ 1 := (fun x v => Host.reduce IntOp.andi x v reducesTo_S65536_S_d0 h_S_) main_v8 main_c_2
  let main_v10 : IVec S_ 1 := andi main_v3 main_v9
  main_v10
-- ==== Kernel.lean ====
abbrev S65536x340 : Shape := ⟨2, ![65536, 340]⟩
abbrev S65536 : Shape := ⟨1, ![65536]⟩
abbrev S65536x1 : Shape := ⟨2, ![65536, 1]⟩
abbrev S2x8x128 : Shape := ⟨3, ![2, 8, 128]⟩
abbrev S4096x340 : Shape := ⟨2, ![4096, 340]⟩
abbrev S4096x1 : Shape := ⟨2, ![4096, 1]⟩
abbrev S1x8x128 : Shape := ⟨3, ![1, 8, 128]⟩
abbrev S1x1 : Shape := ⟨2, ![1, 1]⟩
abbrev S4096 : Shape := ⟨1, ![4096]⟩
abbrev S1 : Shape := ⟨1, ![1]⟩
abbrev S2x1x1 : Shape := ⟨3, ![2, 1, 1]⟩
abbrev S2 : Shape := ⟨1, ![2]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S65536x340, .f32⟩
  | .hbm, ⟨1, _⟩ => ⟨S65536, .i32⟩
  | .hbm, ⟨2, _⟩ => ⟨S65536x1, .i32⟩
  | .hbm, ⟨3, _⟩ => ⟨S2x8x128, .f32⟩
  | .hbm, ⟨4, _⟩ => ⟨S2x1x1, .f32⟩
  | .hbm, ⟨5, _⟩ => ⟨S2, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S4096x340, .f32⟩
  | .local _ .vmem, ⟨1, _⟩ => ⟨S4096x340, .f32⟩
  | .local _ .vmem, ⟨2, _⟩ => ⟨S4096x1, .i32⟩
  | .local _ .vmem, ⟨3, _⟩ => ⟨S4096x1, .i32⟩
  | .local _ .vmem, ⟨4, _⟩ => ⟨S1x8x128, .f32⟩
  | .local _ .vmem, ⟨5, _⟩ => ⟨S1x8x128, .f32⟩
  | .local _ .vmem, ⟨6, _⟩ => ⟨S1x1, .f32⟩
  | _, _ => ⟨S65536x340, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v29 : BitVec 1 := Scalar.cmpi .eq arg1 c7_i32
  let v30 : BitVec 32 := Scalar.extui v29
  let c0_i32_13 : BitVec 32 := 0#32
  let v31 : BitVec 1 := Scalar.cmpi .ne v30 c0_i32_13
  v31

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x340 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S65536_S65536x1 : S65536.ShapeCasts S65536x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x340_S4096x340_0_0 : ∀ a, (![0, 0] : Fin 2 → Nat) a + S4096x340.size a ≤ S4096x340.size a
  h_S4096x340 : 0 < S4096x340.numel
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  iota_S4096x340_d1_w32 : S4096x340.Iotas .tc 32 [1]
  broadcasts_S4096x1_S4096x340 : S4096x1.Broadcasts S4096x340
  reduces_S4096x340_S4096 : S4096x340.Reduces [1] S4096
  shapeCasts_S4096_S4096x1 : S4096.ShapeCasts S4096x1
  reduces_S4096x1_S1 : S4096x1.Reduces [0] S1
  shapeCasts_S1_S1x1 : S1.ShapeCasts S1x1
  inpos_S1x1_p0_0 : ∀ a, (![0, 0] : Fin 2 → Nat) a < S1x1.size a
  inb_S1x8x128_S1x8x128_0_0_0 : ∀ a, (![0, 0, 0] : Fin 3 → Nat) a + S1x8x128.size a ≤ S1x8x128.size a
  h_S1x8x128 : 0 < S1x8x128.numel
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x340.size a ≤ S65536x340.size a
  hwx0_0 : ∀ i : grid0.Coords, EltTy.bits .f32 = 32 ∨ (Rect.block (s := S65536x340) S4096x340.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S65536x1.size a
  hwx0_1 : ∀ i : grid0.Coords, EltTy.bits .i32 = 32 ∨ (Rect.block (s := S65536x1) S4096x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

abbrev win0_0 : Pipeline.Window sig grid0 :=
  Pipeline.Window.ofSpec (Memref.whole main_arg0) S4096x340.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S65536x340 : Shape := ⟨2, ![65536, 340]⟩
abbrev S65536 : Shape := ⟨1, ![65536]⟩
abbrev S65536x1 : Shape := ⟨2, ![65536, 1]⟩
abbrev S_ : Shape := ⟨0, ![]⟩
abbrev S65536x1x1 : Shape := ⟨3, ![65536, 1, 1]⟩
abbrev S1 : Shape := ⟨1, ![1]⟩
abbrev S1x1x1 : Shape := ⟨3, ![1, 1, 1]⟩
abbrev S1x340 : Shape := ⟨2, ![1, 340]⟩

abbrev nBuf : Space → Nat
  | .hbm => 41
  | .vmem => 0
  | .smem => 0
  | _ => 0

abbrev bufTy : (tb : Table) → Fin (tcTables nBuf tb) → BufTy
  | .hbm, ⟨0, _⟩ => ⟨S65536x340, .f32⟩
  | .hbm, ⟨1, _⟩ => ⟨S65536, .i32⟩
  | .hbm, ⟨2, _⟩ => ⟨S65536x1, .i32⟩
  | .hbm, ⟨3, _⟩ => ⟨S_, .i32⟩
  | .hbm, ⟨4, _⟩ => ⟨S65536x1, .i32⟩
  | .hbm, ⟨5, _⟩ => ⟨S65536x1, .i1⟩
  | .hbm, ⟨6, _⟩ => ⟨S_, .i32⟩
  | .hbm, ⟨7, _⟩ => ⟨S65536x1, .i32⟩
  | .hbm, ⟨8, _⟩ => ⟨S65536x1, .i32⟩
  | .hbm, ⟨9, _⟩ => ⟨S65536x1, .i32⟩
  | .hbm, ⟨10, _⟩ => ⟨S65536x1x1, .i32⟩
  | .hbm, ⟨11, _⟩ => ⟨S1, .i32⟩
  | .hbm, ⟨12, _⟩ => ⟨S_, .i32⟩
  | .hbm, ⟨13, _⟩ => ⟨S65536x1x1, .i32⟩
  | .hbm, ⟨14, _⟩ => ⟨S65536x1x1, .i1⟩
  | .hbm, ⟨15, _⟩ => ⟨S1x1x1, .i32⟩
  | .hbm, ⟨16, _⟩ => ⟨S65536x1x1, .i32⟩
  | .hbm, ⟨17, _⟩ => ⟨S65536x1x1, .i1⟩
  | .hbm, ⟨18, _⟩ => ⟨S65536x1x1, .i1⟩
  | .hbm, ⟨19, _⟩ => ⟨S_, .i1⟩
  | .hbm, ⟨20, _⟩ => ⟨S65536x1, .i1⟩
  | .hbm, ⟨21, _⟩ => ⟨S65536x1, .f32⟩
  | .hbm, ⟨22, _⟩ => ⟨S_, .f32⟩
  | .hbm, ⟨23, _⟩ => ⟨S65536x1, .f32⟩
  | .hbm, ⟨24, _⟩ => ⟨S65536x1, .f32⟩
  | .hbm, ⟨25, _⟩ => ⟨S65536x1, .i32⟩
  | .hbm, ⟨26, _⟩ => ⟨S1x340, .i32⟩
  | .hbm, ⟨27, _⟩ => ⟨S65536x340, .i32⟩
  | .hbm, ⟨28, _⟩ => ⟨S65536x340, .i32⟩
  | .hbm, ⟨29, _⟩ => ⟨S65536x340, .i1⟩
  | .hbm, ⟨30, _⟩ => ⟨S65536x340, .f32⟩
  | .hbm, ⟨31, _⟩ => ⟨S_, .f32⟩
  | .hbm, ⟨32, _⟩ => ⟨S65536x340, .f32⟩
  | .hbm, ⟨33, _⟩ => ⟨S65536x340, .f32⟩
  | .hbm, ⟨34, _⟩ => ⟨S65536x340, .f32⟩
  | .hbm, ⟨35, _⟩ => ⟨S65536x340, .f32⟩
  | .hbm, ⟨36, _⟩ => ⟨S65536x340, .f32⟩
  | .hbm, ⟨37, _⟩ => ⟨S65536x340, .f32⟩
  | .hbm, ⟨38, _⟩ => ⟨S_, .f32⟩
  | .hbm, ⟨39, _⟩ => ⟨S_, .f32⟩
  | .hbm, ⟨40, _⟩ => ⟨S_, .f32⟩
  | _, _ => ⟨S65536x340, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v2 : Ref sig .tc := ⟨.hbm, 30, rfl⟩
abbrev main_cst : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_cst_0 : Ref sig .tc := ⟨.hbm, 38, rfl⟩
abbrev main_v9 : Ref sig .tc := ⟨.hbm, 39, rfl⟩
abbrev main_v10 : Ref sig .tc := ⟨.hbm, 40, rfl⟩

abbrev nD : Nat := 1
abbrev τ : Topo := Topo.v7x

variable {F : FTy → Type} [FloatOps F]

class Facts₀ : Prop where
  bcast_S65536_S65536x1_0 : S65536.BroadcastsInDim S65536x1 (![0] : Fin 1 → Fin S65536x1.rank)
  bcast_S_S65536x1 : S_.BroadcastsInDim S65536x1 (![] : Fin 0 → Fin S65536x1.rank)
  shapeCasts_S65536x1_S65536x1x1 : S65536x1.ShapeCasts S65536x1x1
  bcast_S_S65536x1x1 : S_.BroadcastsInDim S65536x1x1 (![] : Fin 0 → Fin S65536x1x1.rank)
  bcast_S1_S1x1x1_2 : S1.BroadcastsInDim S1x1x1 (![2] : Fin 1 → Fin S1x1x1.rank)
  bcast_S1x1x1_S65536x1x1_0_1_2 : S1x1x1.BroadcastsInDim S65536x1x1 (![0, 1, 2] : Fin 3 → Fin S65536x1x1.rank)
  reducesTo_S65536x1x1_S65536x1_d2 : S65536x1x1.ReducesTo [2] S65536x1
  h_S_ : 0 < S_.numel
  bcast_S65536x1_S65536x340_0_1 : S65536x1.BroadcastsInDim S65536x340 (![0, 1] : Fin 2 → Fin S65536x340.rank)
  bcast_S1x340_S65536x340_0_1 : S1x340.BroadcastsInDim S65536x340 (![0, 1] : Fin 2 → Fin S65536x340.rank)
  bcast_S_S65536x340 : S_.BroadcastsInDim S65536x340 (![] : Fin 0 → Fin S65536x340.rank)
  reducesTo_S65536x340_S_d0_1 : S65536x340.ReducesTo [0, 1] S_
  gather_S65536x340_S65536x1x1_S65536x1_n_1_0_0_1_2_11_wf : GatherDims.WF S65536x340 S65536x1x1 S65536x1 [] [1] [0] [1] [0] 2 ![1, 1]

variable [Facts₀]

def gather_S65536x340_S65536x1x1_S65536x1_n_1_0_0_1_2_11 : GatherDims S65536x340 S65536x1x1 S65536x1 where
  offsetDims := []
  collapsedSliceDims := [1]
  operandBatchingDims := [0]
  startIndicesBatchingDims := [0]
  startIndexMap := [1]
  indexVectorDim := 2
  sliceSizes := ![1, 1]
  wf := gather_S65536x340_S65536x1x1_S65536x1_n_1_0_0_1_2_11_wf

class Facts : Prop extends Facts₀ where

variable [Facts]
-- ==== Proof.Domain.lean ====
/-
  What the precondition says of the two argument arrays: every score is a real number (neither infinity), and every
  target, read unsigned, is a class index below 340.

  The printed predicate is the conjunction of two reductions by "and" to one bit. The first ranges over the
  comparison |x| < +∞ of every score; on extended reals max x (-x) < ⊤ excludes exactly ⊤ and ⊥. The second ranges
  over 0 ≤ t (signed) and t < 340 (signed) of every target: a word that is non-negative as a signed number reads the
  same signed and unsigned, so it is below 340 as a natural number.
-/
import proofs.«423445_j85830626443704_2_alg».proof.Pre_finite_inputs
import proofs.«423445_j85830626443704_2_alg».proof.Proof.Gen.Pre_finite_inputs
import Idealize.ShloMosaic.Lib.ReduceAll
import Idealize.ShloMosaic.Lib.ValueIdx
import Idealize.ShloMosaic.PureOps.Ideal.Laws

noncomputable section

namespace Cert.Domain

open Idealize.ShloMosaic Idealize.ShloMosaic.ValueIdx Cert.Pre_finite_inputs

instance : Subsingleton S_.Idx := ⟨fun a b => funext fun d => d.elim0⟩

/-- The word of +∞ denotes ⊤. -/
theorem inf_word : Ideal.ofBits .f32 0x7F800000#32 = (⊤ : EReal) := by
  simp [Ideal.ofBits, Ideal.ieee]

/-- An extended real whose absolute value is below ⊤ is a real number. -/
theorem real_of_abs_lt_top (x : EReal) (h : max x (-x) < ⊤) : ∃ r : ℝ, x = (r : EReal) := by
  induction x using EReal.rec with
  | bot => simp at h
  | top => simp at h
  | coe r => exact ⟨r, rfl⟩

/-- A 32-bit word that is at least 0 and below 340 as a signed number is below 340 as a natural number. -/
theorem lt_of_signed_range (t : BitVec 32) (h0 : IntOp.cmpi .sge t 0#32 = 1#1) (h1 : IntOp.cmpi .slt t 340#32 = 1#1) :
    t.toNat < 340 := by
  rw [IntOp.cmpi_sge, show (0#32 : BitVec 32).toInt = 0 from by decide] at h0
  rw [IntOp.cmpi_slt, show (340#32 : BitVec 32).toInt = 340 from by decide] at h1
  have hlt : 2 * t.toNat < 2 ^ 32 := BitVec.toInt_pos_iff.mp h0
  rw [BitVec.toInt_eq_toNat_of_lt hlt] at h1
  omega

/-- The precondition, read: the scores are real and the targets are class indices. -/
theorem of_pre (x : FVec Ideal S65536x340 .f32) (t : IVec S65536 32)
    (h : Cert.Pre_finite_inputs.fn (F := Ideal) x t = fun _ => 1#1) :
    (∀ i, ∃ r : ℝ, x i = (r : EReal)) ∧ (∀ i, (t i).toNat < 340) := by
  have h0 := congrFun h ix0
  dsimp only [Cert.Pre_finite_inputs.fn] at h0
  obtain ⟨hf, hr⟩ := IntOp.andi_eq_one.1 h0
  constructor
  · intro i
    have hi := Host.reduce_andi_all _ _ _ _ ix0 hf i
    refine real_of_abs_lt_top (x i) ?_
    have hc : Ideal.cmp .olt (max (x i) (-(x i))) (Ideal.ofBits .f32 0x7F800000#32) = 1#1 := hi
    rw [inf_word] at hc
    by_contra hne
    rw [show Ideal.cmp .olt (max (x i) (-(x i))) ⊤ = BitVec.ofBool (decide (max (x i) (-(x i)) < ⊤)) from rfl,
      decide_eq_false hne] at hc
    exact absurd hc (by decide)
  · intro i
    have hi := Host.reduce_andi_all _ _ _ _ ix0 hr i
    obtain ⟨h1, h2⟩ := IntOp.andi_eq_one.1 hi
    exact lt_of_signed_range (t i) h1 h2

end Cert.Domain

end
-- ==== Proof.Pieces.lean ====
/-
  What one grid point leaves in the carried accumulator cell and in the output block, case by case.

  The body keeps a 1×1 accumulator. At the first point of a core's run it stores zero, reads it back and adds the
  block's partial sum; at every later point it adds the block's partial sum to what the point before left; at the last
  point it also broadcasts the accumulator over the 1×8×128 output block. Each case's covering stores are read back as
  the stored values: the cell ends at the accumulation step applied to the two input blocks and the previous cell (zero
  at a first point), the output block at the broadcast of that.
-/
import proofs.«423445_j85830626443704_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Acc

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A first point of a core's run: the cell is zeroed, read back, and the block's partial sum added. -/
theorem cell_first (c : Dev nD) (i : grid0.Coords) (arg2 : Memref sig .tc .vmem S4096x340 .f32) (harg2 : arg2.IsWhole) (arg3 : Memref sig .tc .vmem S4096x1 .i32) (harg3 : arg3.IsWhole) (arg4 : Memref sig .tc .vmem S1x8x128 .f32) (harg4 : arg4.IsWhole) (arg5 : Memref sig .tc .vmem S1x1 .f32) (harg5 : arg5.IsWhole) (hc0 : cond0_0 i) (hc1 : ¬cond0_1 i)
    (x0 : Vec F S4096x340 .f32) (x1 : Vec F S4096x1 .i32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x1) hz2, View.readCov_unit_zero (S := S1x1) _ hz2]
  simp only [View.readAt_eq_ld, harg2.read_unread, harg3.read_unread, View.ld_unit_zero (S := S4096x340) hz2,
    View.ld_unit_zero (S := S4096x1) hz2]

/-- A middle point: the block's partial sum added to what the point before left. -/
theorem cell_middle (c : Dev nD) (i : grid0.Coords) (arg2 : Memref sig .tc .vmem S4096x340 .f32) (harg2 : arg2.IsWhole) (arg3 : Memref sig .tc .vmem S4096x1 .i32) (harg3 : arg3.IsWhole) (arg4 : Memref sig .tc .vmem S1x8x128 .f32) (harg4 : arg4.IsWhole) (arg5 : Memref sig .tc .vmem S1x1 .f32) (harg5 : arg5.IsWhole) (hc0 : ¬cond0_0 i) (hc1 : ¬cond0_1 i)
    (x0 : Vec F S4096x340 .f32) (x1 : Vec F S4096x1 .i32) (xs0 : Vec F S1x1 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero (S := S1x1) hz2]
  simp only [View.readAt_eq_ld, harg2.read_unread, harg3.read_unread, harg5.read_unread, View.ld_unit_zero (S := S4096x340) hz2,
    View.ld_unit_zero (S := S4096x1) hz2, View.ld_unit_zero (S := S1x1) hz2]

/-- A last point: the cell as at a middle point. -/
theorem cell_last (c : Dev nD) (i : grid0.Coords) (arg2 : Memref sig .tc .vmem S4096x340 .f32) (harg2 : arg2.IsWhole) (arg3 : Memref sig .tc .vmem S4096x1 .i32) (harg3 : arg3.IsWhole) (arg4 : Memref sig .tc .vmem S1x8x128 .f32) (harg4 : arg4.IsWhole) (arg5 : Memref sig .tc .vmem S1x1 .f32) (harg5 : arg5.IsWhole) (hc0 : ¬cond0_0 i) (hc1 : cond0_1 i)
    (x0 : Vec F S4096x340 .f32) (x1 : Vec F S4096x1 .i32) (xs0 : Vec F S1x1 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero (S := S1x1) hz2]
  simp only [View.readAt_eq_ld, harg2.read_unread, harg3.read_unread, harg5.read_unread, View.ld_unit_zero (S := S4096x340) hz2,
    View.ld_unit_zero (S := S4096x1) hz2, View.ld_unit_zero (S := S1x1) hz2]

/-- A last point: the output block is the broadcast of the updated cell. -/
theorem block_last (c : Dev nD) (i : grid0.Coords) (arg2 : Memref sig .tc .vmem S4096x340 .f32) (harg2 : arg2.IsWhole) (arg3 : Memref sig .tc .vmem S4096x1 .i32) (harg3 : arg3.IsWhole) (arg4 : Memref sig .tc .vmem S1x8x128 .f32) (harg4 : arg4.IsWhole) (arg5 : Memref sig .tc .vmem S1x1 .f32) (harg5 : arg5.IsWhole) (hc0 : ¬cond0_0 i) (hc1 : cond0_1 i)
    (x0 : Vec F S4096x340 .f32) (x1 : Vec F S4096x1 .i32) (xs0 : Vec F S1x1 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero (S := S1x8x128) hz3]
  simp only [View.readAt_eq_ld, harg2.read_unread, harg3.read_unread, harg5.read_unread, View.ld_unit_zero (S := S4096x340) hz2,
    View.ld_unit_zero (S := S4096x1) hz2, View.ld_unit_zero (S := S1x1) hz2, View.readCov_unit_zero (S := S1x1) _ hz2]

end Cert.KernelIdeal.Acc

end
-- ==== Proof.BlockSum.lean ====
/-
  The accumulation step of the body, read at the exact instance: the cell's new value is its old value plus the sum,
  over the 4096 rows of the block, of the row's factored term
      (∑_b exp x_b) · exp (0 - p) - 1,   p = ∑_b (x_b where the class number b equals the row's target word, else 0).
  The output block written at a last point reads the cell at every index.

  The reading goes through the layout steps one at a time: a lane sum over the classes at row r, a vector cast to a
  column, a column broadcast along the classes, the class number of a lane, a sum down the rows, a 1-vector cast to the
  1×1 cell.
-/
import proofs.«423445_j85830626443704_2_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.KernelIdeal.Acc

open Cert.KernelIdeal Cert.KernelIdeal.Gen

/-- A lane sum over the 340 classes, at row r. -/
theorem laneSum_apply (v : FVec Ideal S4096x340 .f32) (hφ : FKind.Formats FTy.f32)
    (hacc : (0x00000000#32 : BitVec 32) = 0x00000000#32) (r : Fin 4096) :
    multiReduction .add [1] S4096 v 0x00000000#32 reduces_S4096x340_S4096 hφ hacc (ix1 r) = ∑ b : Fin 340, v (ix2 r b) := by
  refine (Ideal.multiReduction_add_single v 0x00000000#32 reduces_S4096x340_S4096 hφ hacc (ix1 r)).trans ?_
  refine Finset.sum_congr rfl fun b _ => congrArg v ?_
  funext a; apply Fin.ext
  match a with
  | ⟨0, _⟩ => rfl
  | ⟨1, _⟩ => rfl

/-- A sum down the 4096 rows of a column. -/
theorem rowSum_apply (v : FVec Ideal S4096x1 .f32) (hφ : FKind.Formats FTy.f32)
    (hacc : (0x00000000#32 : BitVec 32) = 0x00000000#32) (k : S1.Idx) :
    multiReduction .add [0] S1 v 0x00000000#32 reduces_S4096x1_S1 hφ hacc k = ∑ r : Fin 4096, v (ix2 r (0 : Fin 1)) := by
  refine (Ideal.multiReduction_add_single v 0x00000000#32 reduces_S4096x1_S1 hφ hacc k).trans ?_
  refine Finset.sum_congr rfl fun r _ => congrArg v ?_
  funext a; apply Fin.ext
  match a with
  | ⟨0, _⟩ => rfl
  | ⟨1, _⟩ =>
    have hk : (k 0).val < 1 := (k 0).isLt
    show (k 0).val = 0
    omega

/-- A vector of 4096 entries cast to a column reads, at (r, 0), entry r. -/
theorem column_apply {α : Type} (v : S4096.Idx → α) (r : Fin 4096) :
    shapeCast S4096x1 v shapeCasts_S4096_S4096x1 (ix2 r (0 : Fin 1)) = v (ix1 r) :=
  shapeCast_apply v shapeCasts_S4096_S4096x1 _ _ (by
    rw [Shape.rowMajor_val_two, Shape.rowMajor_val_one]
    show r.val = r.val * 1 + 0
    omega)

/-- A 1-vector cast to the 1×1 cell reads its one entry. -/
theorem cell_apply {α : Type} (v : S1.Idx → α) (y : S1x1.Idx) :
    shapeCast S1x1 v shapeCasts_S1_S1x1 y = v (ix1 (0 : Fin 1)) :=
  shapeCast_apply v shapeCasts_S1_S1x1 _ _ (by
    rw [Shape.rowMajor_val_two, Shape.rowMajor_val_one]
    have h0 : (y 0).val < 1 := (y 0).isLt
    have h1 : (y 1).val < 1 := (y 1).isLt
    show (0 : ℕ) = (y 0).val * 1 + (y 1).val
    omega)

/-- A column broadcast along the classes reads, at (r, b), the column's entry r. -/
theorem across_apply {α : Type} (v : S4096x1.Idx → α) (r : Fin 4096) (b : Fin 340) :
    broadcastTo S4096x340 v broadcasts_S4096x1_S4096x340 (ix2 r b) = v (ix2 r (0 : Fin 1)) := by
  refine broadcastTo_apply v broadcasts_S4096x1_S4096x340 (ix2 r b) (ix2 r (0 : Fin 1)) fun ax => ?_
  match ax with
  | ⟨0, _⟩ =>
    show r.val = if (4096 : ℕ) = 1 then 0 else r.val
    rw [if_neg (by decide)]
  | ⟨1, _⟩ => rfl

/-- The class number of lane b. -/
theorem lane_apply (r : Fin 4096) (b : Fin 340) :
    iota .tc S4096x340 32 [1] iota_S4096x340_d1_w32 (ix2 r b) = BitVec.ofNat 32 b.val :=
  iota_single_apply .tc S4096x340 32 1 iota_S4096x340_d1_w32 (ix2 r b)

/-- The factored term of row r of a block: x0 the block's scores, x1 its target words. -/
def blockRow (x0 : FVec Ideal S4096x340 .f32) (x1 : IVec S4096x1 32) (r : Fin 4096) : EReal :=
  (∑ b : Fin 340, Ideal.exp (x0 (ix2 r b)))
    * Ideal.exp (Ideal.ofBits .f32 0x00000000#32
        - ∑ b : Fin 340, Scalar.select (IntOp.cmpi .eq (BitVec.ofNat 32 b.val) (x1 (ix2 r (0 : Fin 1)))) (x0 (ix2 r b))
            (Ideal.ofBits .f32 0x00000000#32))
    - Ideal.ofBits .f32 0x3F800000#32

/-- THE ACCUMULATION STEP at the cell's index. -/
theorem step_apply (x0 : FVec Ideal S4096x340 .f32) (x1 : IVec S4096x1 32) (acc : FVec Ideal S1x1 .f32) (y : S1x1.Idx) :
    k0_pay2 (F := Ideal) x0 x1 acc y = acc y + ∑ r : Fin 4096, blockRow x0 x1 r := by
  unfold k0_pay2
  dsimp only
  rw [shapeCast_self, shapeCast_self]
  rw [addf_apply, cell_apply, rowSum_apply]
  refine congrArg (acc y + ·) (Finset.sum_congr rfl fun r _ => ?_)
  rw [subf_apply, mulf_apply, column_apply, laneSum_apply]
  show _ * Ideal.exp (_ - shapeCast S4096x1 _ shapeCasts_S4096_S4096x1 (ix2 r (0 : Fin 1))) - _ = _
  rw [column_apply, laneSum_apply]
  unfold blockRow
  have hsel : ∀ b : Fin 340,
      select (cmpi .eq (iota .tc S4096x340 32 [1] iota_S4096x340_d1_w32) (broadcastTo S4096x340 x1 broadcasts_S4096x1_S4096x340))
          x0 (broadcast S4096x340 (FloatOps.ofBits (F := Ideal) .f32 0x00000000#32)) (ix2 r b)
        = Scalar.select (IntOp.cmpi .eq (BitVec.ofNat 32 b.val) (x1 (ix2 r (0 : Fin 1)))) (x0 (ix2 r b))
            (Ideal.ofBits .f32 0x00000000#32) := by
    intro b
    rw [select_apply]
    show Scalar.select (IntOp.cmpi .eq (iota .tc S4096x340 32 [1] iota_S4096x340_d1_w32 (ix2 r b))
        (broadcastTo S4096x340 x1 broadcasts_S4096x1_S4096x340 (ix2 r b))) _ _ = _
    rw [lane_apply, across_apply]
    rfl
  rw [Finset.sum_congr rfl fun b _ => hsel b]
  rfl

/-- The output block of a last point reads the cell everywhere. -/
theorem spread_apply (cell : FVec Ideal S1x1 .f32) (j : S1x8x128.Idx) :
    k0_pay3 (F := Ideal) cell j = cell (ix2 (0 : Fin 1) (0 : Fin 1)) := by
  unfold k0_pay3
  try dsimp only
  rw [broadcast_apply]
  unfold extractAt
  congr 1
  funext a
  match a with
  | ⟨0, _⟩ => rfl
  | ⟨1, _⟩ => rfl

/-- The zero the cell is reset to. -/
theorem reset_apply (y : S1x1.Idx) : k0_pay1 (F := Ideal) y = Ideal.ofBits .f32 0x00000000#32 := by
  unfold k0_pay1
  try dsimp only
  rw [shapeCast_self]
  rfl

end Cert.KernelIdeal.Acc

end
-- ==== Proof.Running.lean ====
/-
  The accumulator cell after every grid point, and the output block after a last point.

  The sixteen grid points run as two stretches of eight (one per core half). Within a stretch the cell after point n
  is the sum of the blocks' partial sums over the stretch's points up to n: the first point of a stretch resets the
  cell to zero before adding, every later point adds to what the point before left. By induction on the point. The
  output block after a stretch's last point reads the cell at every index.
-/
import proofs.«423445_j85830626443704_2_alg».proof.Proof.Pieces
import proofs.«423445_j85830626443704_2_alg».proof.Proof.BlockSum

noncomputable section

open scoped BigOperators
open Idealize.ShloMosaic Idealize.ShloMosaic.TcCoe Idealize.ShloMosaic.ValueIdx Idealize.SL.Sem

namespace Cert.KernelIdeal.Acc

open Cert.KernelIdeal Cert.KernelIdeal.Gen

variable (m : (ℓ : Loc nD τ sig) → Buf (Elt Ideal) ℓ)

/-- The block of scores and the block of target words that point t reads. -/
abbrev xblk (c : Dev nD) (t : Fin cfg0.N) : Vec Ideal S4096x340 .f32 := iblk m c 0 t
abbrev tblk (c : Dev nD) (t : Fin cfg0.N) : Vec Ideal S4096x1 .i32 := iblk m c 1 t

/-- The partial sum of block number n: the sum of its 4096 rows' factored terms (zero past the grid). -/
def part (c : Dev nD) (n : ℕ) : EReal :=
  if hn : n < cfg0.N then ∑ r : Fin 4096, blockRow (xblk m c ⟨n, hn⟩) (tblk m c ⟨n, hn⟩) r else 0

/-- The cell after point n: the partial sums of the stretch's points up to n. -/
def cellAfter (c : Dev nD) (n : ℕ) : EReal :=
  ∑ k ∈ Finset.range (n % 8 + 1), part m c (n - n % 8 + k)

/-- The cell after a first point of a stretch. -/
theorem cell_at_first (c : Dev nD) (t : Fin cfg0.N) (h0 : t.val % 8 = 0) (h1 : ¬t.val % 8 = 7) (y : S1x1.Idx) :
    (outsAt0 m c t.val t.isLt).2 y = part m c t.val := by
  rw [outsAt0_A m c t h0 h1]
  dsimp only
  rw [cell_first (F := Ideal) c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (xblk m c t) (tblk m c t)]
  rw [step_apply, reset_apply, Ideal.ofBits_zero_f32, zero_add]
  unfold part
  rw [dif_pos t.isLt]

/-- The cell after any other point: what the point before left, plus the block's partial sum. -/
theorem cell_at_next (c : Dev nD) (t : Fin cfg0.N) (h0 : ¬t.val % 8 = 0) (y : S1x1.Idx) :
    (outsAt0 m c t.val t.isLt).2 y
      = (outsAt0 m c (t.val - 1) (Nat.lt_of_le_of_lt (Nat.sub_le _ _) t.isLt)).2 y + part m c t.val := by
  have hp : part m c t.val = ∑ r : Fin 4096, blockRow (xblk m c t) (tblk m c t) r := by
    unfold part
    rw [dif_pos t.isLt]
  by_cases h1 : t.val % 8 = 7
  · rw [outsAt0_C m c t h0 h1]
    dsimp only
    rw [cell_last (F := Ideal) c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1) (xblk m c t) (tblk m c t)
      (outsAt0 m c (t.val - 1) (Nat.lt_of_le_of_lt (Nat.sub_le _ _) t.isLt)).2]
    rw [step_apply, hp]
  · rw [outsAt0_B m c t h0 h1]
    dsimp only
    rw [cell_middle (F := Ideal) c (grid0.coords t) (ms0_0 t) (hs0_0 t) (ms0_1 t) (hs0_1 t) (ms0_2 t) (hs0_2 t) scM0_0
      (Memref.isWhole_whole _) (fun h => h0 ((hcond0_0 t).mp h)) (fun h => h1 ((hcond0_1 t).mp h)) (xblk m c t) (tblk m c t)
      (outsAt0 m c (t.val - 1) (Nat.lt_of_le_of_lt (Nat.sub_le _ _) t.isLt)).2]
    rw [step_apply, hp]

/-- THE CELL AFTER POINT n is the running sum of its stretch. -/
theorem cell_eq (c : Dev nD) : ∀ (n : ℕ) (hn : n < cfg0.N) (y : S1x1.Idx), (outsAt0 m c n hn).2 y = cellAfter m c n
  | 0, hn, y => by
    have h := cell_at_first m c ⟨0, hn⟩ (Nat.zero_mod _) (show ¬(0 % 8 = 7) from by decide) y
    rw [show outsAt0 m c 0 hn = outsAt0 m c (⟨0, hn⟩ : Fin cfg0.N).val (⟨0, hn⟩ : Fin cfg0.N).isLt from rfl, h]
    unfold cellAfter
    simp
  | n + 1, hn, y => by
    have hN : cfg0.N = 16 := N_0
    by_cases h0 : (n + 1) % 8 = 0
    · have h1 : ¬(n + 1) % 8 = 7 := by omega
      have h := cell_at_first m c ⟨n + 1, hn⟩ h0 h1 y
      rw [show outsAt0 m c (n + 1) hn = outsAt0 m c (⟨n + 1, hn⟩ : Fin cfg0.N).val (⟨n + 1, hn⟩ : Fin cfg0.N).isLt from rfl, h]
      unfold cellAfter
      rw [h0]
      simp
    · have h := cell_at_next m c ⟨n + 1, hn⟩ h0 y
      rw [show outsAt0 m c (n + 1) hn = outsAt0 m c (⟨n + 1, hn⟩ : Fin cfg0.N).val (⟨n + 1, hn⟩ : Fin cfg0.N).isLt from rfl, h]
      have ih := cell_eq c n (Nat.lt_of_succ_lt hn) y
      rw [show outsAt0 m c ((⟨n + 1, hn⟩ : Fin cfg0.N).val - 1) (Nat.lt_of_le_of_lt (Nat.sub_le _ _) (⟨n + 1, hn⟩ : Fin cfg0.N).isLt)
        = outsAt0 m c n (Nat.lt_of_succ_lt hn) from rfl, ih]
      unfold cellAfter
      have e1 : (n + 1) % 8 = n % 8 + 1 := by omega
      have e2 : n + 1 - (n + 1) % 8 = n - n % 8 := by omega
      rw [e2, e1, Finset.sum_range_succ (n := n % 8 + 1)]
      congr 2
      show n + 1 = n - n % 8 + (n % 8 + 1)
      have := Nat.mod_le n 8
      omega

/-- The output block after a last point of a stretch reads that point's cell. -/
theorem block_at_last (c : Dev nD) (t : Fin cfg0.N) (h1 : t.val % 8 = 7) (j : S1x8x128.Idx) :
    (outsAt0 m c t.val t.isLt).1 j = cellAfter m c t.val := by
  have h0 : ¬t.val % 8 = 0 := by omega
  rw [← cell_eq m c t.val t.isLt (ix2 (0 : Fin 1) (0 : Fin 1))]
  rw [outsAt0_C m c t h0 h1]
  dsimp only
  rw [block_last (F := Ideal) c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1) (xblk m c t) (tblk m c t)
      (outsAt0 m c (t.val - 1) (Nat.lt_of_le_of_lt (Nat.sub_le _ _) t.isLt)).2,
    cell_last (F := Ideal) c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1) (xblk m c t) (tblk m c t)
      (outsAt0 m c (t.val - 1) (Nat.lt_of_le_of_lt (Nat.sub_le _ _) t.isLt)).2]
  exact spread_apply _ j

/-- After a last point the cell is the whole stretch's sum: eight blocks from the stretch's first. -/
theorem cellAfter_last (c : Dev nD) (q : ℕ) : cellAfter m c (8 * q + 7) = ∑ k ∈ Finset.range 8, part m c (8 * q + k) := by
  unfold cellAfter
  have e1 : (8 * q + 7) % 8 = 7 := by omega
  rw [e1]
  have e2 : 8 * q + 7 - 7 = 8 * q := by omega
  rw [e2]

end Cert.KernelIdeal.Acc

end
-- ==== Proof.RowAlgebra.lean ====
/-
  The algebra behind the pairwise exponential loss, on real numbers and on extended reals that are real.

  For one row a₀ … aₙ₋₁ of finite scores with positive class y, the sum over the other classes of exp (aⱼ - a_y)
  is (∑ⱼ exp aⱼ) · exp (-a_y) - 1: the term j = y of the full sum is exp 0 = 1, and exp (aⱼ - a_y) factors as
  exp aⱼ · exp (-a_y). The masked spelling multiplies each term by 1 - [j = y]; the factored spelling reads a_y as
  the sum over j of aⱼ where j = y and 0 elsewhere. Both are stated here over an abstract finite index type.
  Also: a finite sum of real numbers read as extended reals, and a sum over m·n consecutive naturals cut into m
  stretches of n.
-/
import Idealize.ShloMosaic.PureOps.Ideal.Laws

noncomputable section

open scoped BigOperators

namespace RowAlgebra

open Idealize.ShloMosaic

/-- The coercion of reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- On the reals: the masked sum of exp (aⱼ - a_y) over j ≠ y is the factored form. -/
theorem real_row {ι : Type*} [Fintype ι] [DecidableEq ι] (a : ι → ℝ) (y : ι) :
    (∑ j, Real.exp (a j)) * Real.exp (0 - a y) - 1 = ∑ j, Real.exp (a j - a y) * (1 - if j = y then 1 else 0) := by
  have h : ∀ j, Real.exp (a j - a y) * (1 - if j = y then (1 : ℝ) else 0)
      = Real.exp (a j) * Real.exp (0 - a y) - if j = y then 1 else 0 := by
    intro j
    by_cases hj : j = y
    · subst hj
      have h1 : Real.exp (a j) * Real.exp (0 - a j) = 1 := by rw [← Real.exp_add]; simp
      rw [if_pos rfl, h1]; simp
    · rw [if_neg hj, sub_zero, mul_one, sub_zero, ← Real.exp_add]
      congr 1; ring
  rw [Finset.sum_congr rfl fun j _ => h j, Finset.sum_sub_distrib, ← Finset.sum_mul, Finset.sum_ite_eq' Finset.univ y]
  simp

/-- The positive score as the kernel reads it: the sum over the classes of the score where the class is y, zero elsewhere. -/
theorem sum_pick {ι : Type*} [Fintype ι] [DecidableEq ι] {M : Type*} [AddCommMonoid M] (a : ι → M) (y : ι) :
    ∑ j, (if j = y then a j else 0) = a y := by
  rw [Finset.sum_ite_eq' Finset.univ y a]
  simp

/-- The same identity on extended reals that are real: the exponential is the ideal instance's, the scores are
    coerced reals. -/
theorem ereal_row {ι : Type*} [Fintype ι] [DecidableEq ι] (a : ι → ℝ) (y : ι) :
    (∑ j, Ideal.exp (a j : EReal)) * Ideal.exp (0 - (a y : EReal)) - 1
      = ∑ j, Ideal.exp ((a j : EReal) - (a y : EReal)) * (1 - if j = y then (1 : EReal) else 0) := by
  have hr : ∀ j, Ideal.exp ((a j : EReal) - (a y : EReal)) * (1 - if j = y then (1 : EReal) else 0)
      = ((Real.exp (a j - a y) * (1 - if j = y then (1 : ℝ) else 0) : ℝ) : EReal) := by
    intro j
    rw [← EReal.coe_sub, Ideal.exp_coe, EReal.coe_mul]
    congr 1
    by_cases hj : j = y
    · rw [if_pos hj, if_pos hj, EReal.coe_sub, EReal.coe_one]
    · rw [if_neg hj, if_neg hj, EReal.coe_sub, EReal.coe_one, EReal.coe_zero]
  rw [Finset.sum_congr rfl fun j _ => hr j, ← coe_sum, ← real_row]
  have hl : ∀ j, Ideal.exp (a j : EReal) = ((Real.exp (a j) : ℝ) : EReal) := fun j => Ideal.exp_coe _
  rw [Finset.sum_congr rfl fun j _ => hl j, ← coe_sum]
  rw [show (0 : EReal) - (a y : EReal) = ((0 - a y : ℝ) : EReal) by norm_cast, Ideal.exp_coe]
  norm_cast

/-- A sum over m·n consecutive naturals is m stretches of n. -/
theorem sum_fin_mul {M : Type*} [AddCommMonoid M] (m n : ℕ) (f : ℕ → M) :
    ∑ i : Fin (m * n), f i.val = ∑ a : Fin m, ∑ b : Fin n, f (n * a.val + b.val) := by
  rw [← Equiv.sum_comp finProdFinEquiv, Fintype.sum_prod_type]
  refine Finset.sum_congr rfl fun a _ => Finset.sum_congr rfl fun b _ => ?_
  refine congrArg f ?_
  simp [finProdFinEquiv, Nat.add_comm]

end RowAlgebra

end
-- ==== Proof.PairLoss.lean ====
/-
  The pairwise exponential loss of a batch of 65536 rows of 340 scores with one positive class per row, as one
  function of the score array x and the target array t, over the extended reals.

  For row a with positive class y = t a, the row term is the sum over the classes b ≠ y of exp (x a b - x a y),
  written with the mask 1 - [b = y]; the loss is log (1 + the sum of the row terms). The same row term in factored
  form is (∑_b exp (x a b)) · exp (0 - x a y) - 1; the two agree when the row's scores are real numbers.
-/
import proofs.«423445_j85830626443704_2_alg».proof.Proof.RowAlgebra
import Idealize.ShloMosaic.Lib.ValueIdx

noncomputable section

open scoped BigOperators

namespace PairLoss

open Idealize.ShloMosaic Idealize.ShloMosaic.ValueIdx

/-- The shape of the scores and of the targets. -/
abbrev SX : Shape := ⟨2, ![65536, 340]⟩
abbrev ST : Shape := ⟨1, ![65536]⟩

/-- The positive class of row a: the target word read unsigned, known to be below 340. -/
def cls (t : IVec ST 32) (h : ∀ i, (t i).toNat < 340) (a : Fin 65536) : Fin 340 := ⟨(t (ix1 a)).toNat, h _⟩

/-- The row term in masked form: every class's exp (x a b - x a y), times 1 - [b = y]. -/
def maskedRow (x : SX.Idx → EReal) (y : Fin 340) (a : Fin 65536) : EReal :=
  ∑ b : Fin 340, Ideal.exp (x (ix2 a b) - x (ix2 a y)) * (1 - if b = y then (1 : EReal) else 0)

/-- The row term in factored form. -/
def factoredRow (x : SX.Idx → EReal) (y : Fin 340) (a : Fin 65536) : EReal :=
  (∑ b : Fin 340, Ideal.exp (x (ix2 a b))) * Ideal.exp (0 - x (ix2 a y)) - 1

/-- The loss: log (1 + the sum over the rows of the masked row terms). -/
def loss (x : SX.Idx → EReal) (t : IVec ST 32) (h : ∀ i, (t i).toNat < 340) : EReal :=
  Ideal.log1p (0 + ∑ a : Fin 65536, maskedRow x (cls t h a) a)

/-- On a row of real scores the factored form is the masked form. -/
theorem factoredRow_eq (x : SX.Idx → EReal) (hx : ∀ i, ∃ r : ℝ, x i = (r : EReal)) (y : Fin 340) (a : Fin 65536) :
    factoredRow x y a = maskedRow x y a := by
  choose r hr using hx
  unfold factoredRow maskedRow
  simp only [hr]
  exact RowAlgebra.ereal_row (fun b => r (ix2 a b)) y

/-- The factored row term of row number n, zero past the last row: the form a sum over consecutive row numbers uses. -/
def rowAt (x : SX.Idx → EReal) (t : IVec ST 32) (h : ∀ i, (t i).toNat < 340) (n : ℕ) : EReal :=
  if hn : n < 65536 then factoredRow x (cls t h ⟨n, hn⟩) ⟨n, hn⟩ else 0

/-- The sum of the masked row terms, cut as the tiled computation cuts it: two halves of eight blocks of 4096 rows,
    each row in factored form. -/
theorem sum_rows_tiled (x : SX.Idx → EReal) (hx : ∀ i, ∃ r : ℝ, x i = (r : EReal)) (t : IVec ST 32)
    (h : ∀ i, (t i).toNat < 340) :
    ∑ a : Fin 65536, maskedRow x (cls t h a) a
      = ∑ c : Fin 2, ∑ k : Fin 8, ∑ r : Fin 4096, rowAt x t h (4096 * (8 * c.val + k.val) + r.val) := by
  have h1 : ∑ a : Fin 65536, maskedRow x (cls t h a) a = ∑ a : Fin (16 * 4096), rowAt x t h a.val := by
    refine Finset.sum_congr rfl fun a _ => ?_
    have ha : a.val < 65536 := a.isLt
    unfold rowAt
    rw [dif_pos ha, factoredRow_eq x hx]
  rw [h1, RowAlgebra.sum_fin_mul 16 4096 (rowAt x t h)]
  have h2 := RowAlgebra.sum_fin_mul 2 8 (fun b => ∑ r : Fin 4096, rowAt x t h (4096 * b + r.val))
  exact h2

end PairLoss

end
-- ==== Proof.Blocks.lean ====
/-
  The blocks the grid points read, as rows of the two argument arrays, and each block's partial sum as a sum of the
  loss's factored row terms.

  Point t reads rows 4096·t … 4096·t + 4095 of the scores, and the same rows of the targets laid out as a column (the
  column is the target vector reshaped before the region starts). On a row whose target word is a class index y below
  340, the sum over the classes b of "the score where b = y, zero elsewhere" is the score of class y, so the body's row
  term is the factored row term of the loss.
-/
import proofs.«423445_j85830626443704_2_alg».proof.Proof.Running
import proofs.«423445_j85830626443704_2_alg».proof.Proof.PairLoss
import Idealize.ShloMosaic.Lib.StableHlo.Run
import Idealize.ShloMosaic.Lib.StableHlo.Predicate

noncomputable section

open scoped BigOperators
open Idealize.ShloMosaic Idealize.ShloMosaic.TcCoe Idealize.ShloMosaic.ValueIdx Idealize.SL.Sem

namespace Cert.KernelIdeal.Acc

open Cert.KernelIdeal Cert.KernelIdeal.Gen

variable (m : (ℓ : Loc nD τ sig) → Buf (Elt Ideal) ℓ)

/-- The two argument arrays on core c. -/
abbrev scores (c : Dev nD) : FVec Ideal S65536x340 .f32 := m ((c : Thread nD τ).loc main_arg0)
abbrev targets (c : Dev nD) : IVec S65536 32 := m ((c : Thread nD τ).loc main_arg1)

/-- The block index of the two input windows at point t is t on the rows and 0 on the other axis. -/
theorem in_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- The column of targets the region finds is the target vector reshaped. -/
theorem column_eq (c : Dev nD) :
    (V m c main_v0 : S65536x1.Idx → BitVec 32) = shapeCast S65536x1 (targets m c) shapeCasts_S65536_S65536x1 := by
  show StableHlo.after hostOps0 (fun b => m (c, b)) (Proc.devRef .tc main_v0) = _
  after_results
  rfl

/-- Row r of the scores block of point t is row 4096·t + r of the scores. -/
theorem xblk_apply (c : Dev nD) (t : Fin cfg0.N) (r : Fin 4096) (b : Fin 340) (hr : 4096 * t.val + r.val < 65536) :
    xblk m c t (ix2 r b) = scores m c (ix2 ⟨4096 * t.val + r.val, hr⟩ b) := by
  unfold xblk iblk
  rw [View.read_apply]
  show V m c main_arg0 _ = _
  rw [V_main_arg0 m c]
  refine congrArg (scores m c) ?_
  funext a; apply Fin.ext
  match a with
  | ⟨0, _⟩ =>
    show win0_0.index t 0 * 4096 + 1 * r.val = 4096 * t.val + r.val
    rw [(in_index t).1]; omega
  | ⟨1, _⟩ =>
    show win0_0.index t 1 * 340 + 1 * b.val = b.val
    rw [(in_index t).2.1]; omega

/-- Row r of the targets block of point t is target 4096·t + r. -/
theorem tblk_apply (c : Dev nD) (t : Fin cfg0.N) (r : Fin 4096) (hr : 4096 * t.val + r.val < 65536) :
    tblk m c t (ix2 r (0 : Fin 1)) = targets m c (ix1 ⟨4096 * t.val + r.val, hr⟩) := by
  unfold tblk iblk
  rw [View.read_apply]
  show (V m c main_v0 : S65536x1.Idx → BitVec 32) _ = _
  rw [column_eq m c]
  refine shapeCast_apply (targets m c) shapeCasts_S65536_S65536x1 _ _ ?_
  rw [Shape.rowMajor_val_two, Shape.rowMajor_val_one]
  show 4096 * t.val + r.val = (win0_1.index t 0 * 4096 + 1 * r.val) * 1 + (win0_1.index t 1 * 1 + 1 * 0)
  rw [(in_index t).2.2.1, (in_index t).2.2.2]; omega

/-- The words of zero and one. -/
theorem one_word : Ideal.ofBits .f32 0x3F800000#32 = (1 : EReal) := by
  simp [Ideal.ofBits, Ideal.ieee, -EReal.coe_mul]; norm_num

/-- A class number below 340 and a target word below 340 are equal as words exactly when they are equal as numbers. -/
theorem lane_eq_iff (b : Fin 340) (w : BitVec 32) (hw : w.toNat < 340) :
    IntOp.cmpi .eq (BitVec.ofNat 32 b.val) w = 1#1 ↔ b.val = w.toNat := by
  rw [IntOp.cmpi_eq]
  constructor
  · intro h
    have := congrArg BitVec.toNat h
    rw [BitVec.toNat_ofNat] at this
    have hb := b.isLt
    omega
  · intro h
    apply BitVec.eq_of_toNat_eq
    rw [BitVec.toNat_ofNat]
    have hb := b.isLt
    omega

/-- The body's row term, on a row of the block of point t, is the loss's factored row term of that row. -/
theorem blockRow_eq (c : Dev nD) (h : ∀ i, (targets m c i).toNat < 340) (t : Fin cfg0.N) (r : Fin 4096) :
    blockRow (xblk m c t) (tblk m c t) r = PairLoss.rowAt (scores m c) (targets m c) h (4096 * t.val + r.val) := by
  have hN : cfg0.N = 16 := N_0
  have hr : 4096 * t.val + r.val < 65536 := by have := t.isLt; have := r.isLt; omega
  unfold PairLoss.rowAt
  rw [dif_pos hr]
  unfold blockRow PairLoss.factoredRow
  rw [Ideal.ofBits_zero_f32, one_word, tblk_apply m c t r hr]
  have hpick : ∀ b : Fin 340,
      Scalar.select (IntOp.cmpi .eq (BitVec.ofNat 32 b.val) (targets m c (ix1 ⟨4096 * t.val + r.val, hr⟩))) (xblk m c t (ix2 r b)) (0 : EReal)
        = if b = PairLoss.cls (targets m c) h ⟨4096 * t.val + r.val, hr⟩ then scores m c (ix2 ⟨4096 * t.val + r.val, hr⟩ b) else 0 := by
    intro b
    rw [xblk_apply m c t r b hr]
    by_cases hb : b = PairLoss.cls (targets m c) h ⟨4096 * t.val + r.val, hr⟩
    · rw [if_pos hb, (lane_eq_iff b _ (h _)).mpr (by rw [hb]; rfl), select_one]
    · rw [if_neg hb, eq_zero_of_ne_one (fun hc => hb (Fin.ext ((lane_eq_iff b _ (h _)).mp hc))), select_zero]
  rw [Finset.sum_congr rfl fun b _ => hpick b, RowAlgebra.sum_pick]
  congr 2
  exact Finset.sum_congr rfl fun b _ => by rw [xblk_apply m c t r b hr]

/-- The partial sum of block n is the sum of the loss's factored row terms over its 4096 rows. -/
theorem part_eq (c : Dev nD) (h : ∀ i, (targets m c i).toNat < 340) (n : ℕ) (hn : n < 16) :
    part m c n = ∑ r : Fin 4096, PairLoss.rowAt (scores m c) (targets m c) h (4096 * n + r.val) := by
  have hN : cfg0.N = 16 := N_0
  unfold part
  rw [dif_pos (by omega)]
  exact Finset.sum_congr rfl fun r _ => blockRow_eq m c h ⟨n, by omega⟩ r

end Cert.KernelIdeal.Acc

end
-- ==== Proof.Final.lean ====
/-
  The result array of the region, the host lines after it, and the kernel's run read as a value.

  The output array has one 8×128 block per core half; the block of half q is written back once, after the half's last
  point 8·q + 7, and reads that point's accumulator cell everywhere: the sum of the partial sums of blocks 8·q … 8·q + 7.
  After the region the host takes entry (q, 0, 0) of each half, adds the two to zero, and applies log (1 + ·). With the
  blocks' partial sums written as sums of the loss's factored row terms, and those regrouped over all 65536 rows, the
  result is the loss of the two argument arrays.
-/
import proofs.«423445_j85830626443704_2_alg».proof.Proof.Blocks

noncomputable section

open scoped BigOperators
open Idealize.ShloMosaic Idealize.ShloMosaic.TcCoe Idealize.ShloMosaic.ValueIdx Idealize.SL.Sem
open Idealize.ShloMosaic.Pipeline (Dat)

namespace Cert.KernelIdeal.Acc

open Cert.KernelIdeal Cert.KernelIdeal.Gen

variable (m : (ℓ : Loc nD τ sig) → Buf (Elt Ideal) ℓ) (ρ : Dev nD → PrngReg)

/-- The output array after the region: at (q, ·, ·) the sum of the partial sums of the eight blocks of half q. -/
def halves (c : Dev nD) : FVec Ideal S2x8x128 .f32 := fun i => ∑ k ∈ Finset.range 8, part m c (8 * (i 0).val + k)

/-- The output window's block index at point t: the half t / 8, and 0 on the two tile axes. -/
theorem out_index : ∀ t : Fin cfg0.N, win0_2.index t (0 : Fin 3) = t.val / 8 ∧ win0_2.index t (1 : Fin 3) = 0
    ∧ win0_2.index t (2 : Fin 3) = 0 :=
  (by decide +kernel : ∀ t : Fin grid0.N, win0_2.index t (0 : Fin 3) = t.val / 8 ∧ win0_2.index t (1 : Fin 3) = 0
    ∧ win0_2.index t (2 : Fin 3) = 0)

/-- What a writing-back point writes is its block of the array of the halves' sums. -/
theorem flushed_eq (c : Dev nD) (t : Fin cfg0.N) (hf : (cfg0.win 2).flush t = true) :
    (dats m 0 c).flushed 2 t = ((cfg0.win 2).blk t).view.read (Elt Ideal) (halves m c) := by
  have h7 : t.val % 8 = 7 := (flush0_2 t).mp hf
  show (cfg0.win 2).cut (grid0.coords t) ((dats m 0 c).after 2 t) = _
  rw [after0_2]
  funext j
  show (outsAt0 m c t.val t.isLt).1 j = halves m c (((cfg0.win 2).blk t).view.emb j)
  rw [block_at_last m c t h7 j]
  unfold halves
  have he : ((((cfg0.win 2).blk t).view.emb j) 0).val = t.val / 8 := by
    show win0_2.index t (0 : Fin 3) * 1 + 1 * (j 0).val = t.val / 8
    have hj : (j 0).val < 1 := (j 0).isLt
    rw [(out_index t).1]; omega
  rw [he]
  have ht : t.val = 8 * (t.val / 8) + 7 := by omega
  rw [show cellAfter m c t.val = cellAfter m c (8 * (t.val / 8) + 7) from by rw [← ht]]
  exact cellAfter_last m c (t.val / 8)

/-- Every index of the output array lies in the block some writing-back point writes: the last point of its half. -/
theorem covered (c : Dev nD) (i : ((cfg0.win 2).arr.view.loc (c.tc : Thread nD τ)).2.ty.Idx) :
    ∃ t : Fin cfg0.N, (cfg0.win 2).flush t = true ∧ i ∈ ((cfg0.win 2).blk t).view.set := by
  have hN : cfg0.N = 16 := N_0
  have i0 : ((i : S2x8x128.Idx) 0).val < 2 := ((i : S2x8x128.Idx) 0).isLt
  have i1 : ((i : S2x8x128.Idx) 1).val < 8 := ((i : S2x8x128.Idx) 1).isLt
  have i2 : ((i : S2x8x128.Idx) 2).val < 128 := ((i : S2x8x128.Idx) 2).isLt
  let t : Fin cfg0.N := ⟨8 * ((i : S2x8x128.Idx) 0).val + 7, by omega⟩
  have htv : t.val = 8 * ((i : S2x8x128.Idx) 0).val + 7 := rfl
  refine ⟨t, (flush0_2 t).mpr (by omega), ?_⟩
  show (i : S2x8x128.Idx) ∈ ((View.whole main_v1).slice (win0_2.rect t)).set
  rw [View.set_slice_whole, Rect.mem_set_unit]
  intro a
  obtain ⟨e0, e1, e2⟩ := out_index t
  match a with
  | ⟨0, _⟩ =>
    show win0_2.index t (0 : Fin 3) * 1 ≤ ((i : S2x8x128.Idx) 0).val ∧ ((i : S2x8x128.Idx) 0).val < win0_2.index t (0 : Fin 3) * 1 + 1
    rw [e0]; omega
  | ⟨1, _⟩ =>
    show win0_2.index t (1 : Fin 3) * 8 ≤ ((i : S2x8x128.Idx) 1).val ∧ ((i : S2x8x128.Idx) 1).val < win0_2.index t (1 : Fin 3) * 8 + 8
    rw [e1]; omega
  | ⟨2, _⟩ =>
    show win0_2.index t (2 : Fin 3) * 128 ≤ ((i : S2x8x128.Idx) 2).val ∧ ((i : S2x8x128.Idx) 2).val < win0_2.index t (2 : Fin 3) * 128 + 128
    rw [e2]; omega

/-- So the output array ends at the halves' sums. -/
theorem final_out (c : Dev nD) : (dats m 0 c).arrAt 2 cfg0.N = halves m c :=
  (dats m 0 c).arrAt_eq_of_cover 2 (halves m c) (flushed_eq m c) (covered c)

/-- The host lines after the region, as one function of the output array. -/
def tail (A : FVec Ideal S2x8x128 .f32) : FVec Ideal S_ .f32 :=
  Host.log1p (F := Ideal) (Host.reduceAdd (F := Ideal)
    (shapeCast S2 (extractStridedSlice S2x1x1 ![0, 0, 0] A slices_S2x8x128_S2x1x1_0_0_0) shapeCasts_S2x1x1_S2)
    (constant (F := Ideal) S_ .f32 0x00000000#32) reducesTo_S2_S_d0 h_S_)

/-- What the result buffer holds after the run. -/
theorem result_eq (c : Dev nD) :
    Pipeline.afterTail₀ cfgs (dats m) 0 (V0 m) [hostOps1] c main_v5 = tail (halves m c) := by
  unfold Pipeline.afterTail₀
  show StableHlo.after hostOps1 _ (Proc.devRef .tc main_v5) = _
  after_results
  rw [show Pipeline.withArrays spec0 c (V0 m c) (fun w => (dats m 0 c).arrAt w cfg0.N) (Proc.devRef .tc main_v1)
      = halves m c from (Pipeline.withArrays_arr spec0 launch0.win.arr_inj c _ _ 2).trans (final_out m c)]
  rfl

/-- The tail at the scalar's index: log (1 + the sum of the two halves' entries at (q, 0, 0)). -/
theorem tail_apply (A : FVec Ideal S2x8x128 .f32) (i : S_.Idx) :
    tail A i = Ideal.log1p (0 + ∑ q : Fin 2, A (ix3 q (0 : Fin 8) (0 : Fin 128))) := by
  unfold tail
  show Ideal.log1p (Ideal.hostReduceAdd reducesTo_S2_S_d0 _ (Ideal.ofBits .f32 0x00000000#32) i) = _
  rw [Ideal.hostReduceAdd_total reducesTo_S2_S_d0 (fun b => b.elim0), Ideal.ofBits_zero_f32]
  congr 2
  rw [show (∑ j : S2.Idx, shapeCast S2 (extractStridedSlice S2x1x1 ![0, 0, 0] A slices_S2x8x128_S2x1x1_0_0_0) shapeCasts_S2x1x1_S2 j)
      = ∑ q : Fin 2, shapeCast S2 (extractStridedSlice S2x1x1 ![0, 0, 0] A slices_S2x8x128_S2x1x1_0_0_0) shapeCasts_S2x1x1_S2 (ix1 q) from
    (Equiv.sum_comp (⟨fun q : Fin 2 => (ix1 q : S2.Idx), fun j => j 0, fun q => rfl, fun j => (eq_ix1 j).symm⟩ : Fin 2 ≃ S2.Idx) _).symm]
  refine Finset.sum_congr rfl fun q _ => ?_
  rw [shapeCast_apply (extractStridedSlice S2x1x1 ![0, 0, 0] A slices_S2x8x128_S2x1x1_0_0_0) shapeCasts_S2x1x1_S2 (ix1 q)
    (ix3 q (0 : Fin 1) (0 : Fin 1)) (by rw [Shape.rowMajor_val_three, Shape.rowMajor_val_one]; show (q.val * 1 + 0) * 1 + 0 = q.val; omega)]
  refine extractStridedSlice_apply ![0, 0, 0] A slices_S2x8x128_S2x1x1_0_0_0 (ix3 q (0 : Fin 1) (0 : Fin 1)) (ix3 q (0 : Fin 8) (0 : Fin 128)) ?_
  intro a
  match a with
  | ⟨0, _⟩ => show q.val = 0 + q.val; omega
  | ⟨1, _⟩ => rfl
  | ⟨2, _⟩ => rfl

/-- The kernel's result is the loss of its two argument arrays, when the scores are real and the targets class indices. -/
theorem value_eq (c : Dev nD) (hx : ∀ i, ∃ r : ℝ, scores m c i = (r : EReal)) (h : ∀ i, (targets m c i).toNat < 340) :
    tail (halves m c) = fun _ => PairLoss.loss (scores m c) (targets m c) h := by
  have hsum : ∑ q : Fin 2, halves m c (ix3 q (0 : Fin 8) (0 : Fin 128))
      = ∑ a : Fin 65536, PairLoss.maskedRow (scores m c) (PairLoss.cls (targets m c) h a) a := by
    rw [PairLoss.sum_rows_tiled (scores m c) hx (targets m c) h]
    refine Finset.sum_congr rfl fun q _ => ?_
    show ∑ k ∈ Finset.range 8, part m c (8 * q.val + k) = _
    rw [Finset.sum_range]
    refine Finset.sum_congr rfl fun k _ => ?_
    have hq : q.val < 2 := q.isLt
    have hk : k.val < 8 := k.isLt
    exact part_eq m c h (8 * q.val + k.val) (by omega)
  funext i
  rw [tail_apply, hsum]
  rfl

/-- THE RUN: every weakly fair execution ends with the result buffer at the tail of the halves' sums, the arguments
    unchanged. -/
theorem run : θ_run defs (onTc (τ := τ) (main (F := Ideal))) ⟨m, fun _ => 0, ρ⟩ fun r => ∀ c : Dev nD,
      r.2.mem ((c.tc : Thread nD τ).loc main_v5) = tail (halves m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r hr c =>
      ⟨((hr c).2 main_v5 (Pipeline.mem_restRefs_of main_v5 (by decide) (by decide))).trans (result_eq m c),
        ((hr c).1 0).trans (((dats m 0 c).arrAt_in 0 rfl _).trans ((A_eq m c 0).trans (V_main_arg0 m c))),
        ((hr c).2 main_arg1 (Pipeline.mem_restRefs_of main_arg1 (by decide) (by decide))).trans (W_main_arg1 m (dats m) c)⟩)
    (run_main m ρ)

end Cert.KernelIdeal.Acc

end
-- ==== Proof.RefValue.lean ====
/-
  The reference's loss as one function of its two arguments: the printed reference program, read one operation at a
  time down to one element, computes log (1 + the sum over rows a and classes b of exp (x a b - x a y) * (1 - [b = y]))
  with y the target of row a, when every target lies in [0, 340).
-/
import proofs.«423445_j85830626443704_2_alg».proof.Proof.RefReadPatched
import proofs.«423445_j85830626443704_2_alg».proof.Proof.PairLoss
import Idealize.ShloMosaic.Lib.ValueIdx
import Idealize.ShloMosaic.PureOps.Ideal.Laws
import Idealize.ShloMosaic.Lib.Pipeline.Value
import Idealize.ShloMosaic.Lib.StableHlo.Predicate
import Idealize.ShloMosaic.Lib.ReduceAll

noncomputable section

open scoped BigOperators

namespace Cert.RefLoss

open Idealize.ShloMosaic Idealize.ShloMosaic.ValueIdx Idealize.ShloMosaic.StableHlo
open Cert.ReferenceIdeal Cert.ReferenceIdeal.Gen Cert.ReferenceIdeal.Read

/-! ## Words: a target in range compares as its value -/

/-- A word below 340 is not negative: its signed "less than 0" is the bit 0. -/
theorem slt_zero (t : BitVec 32) (ht : t.toNat < 340) : IntOp.cmpi .slt t 0#32 = 0#1 := by
  refine eq_zero_of_ne_one fun e => ?_
  have h0 : (0#32 : BitVec 32).toNat = 0 := rfl
  have := (Predicate.slt_iff_toNat (a := t) (b := 0#32) (by omega) (by omega)).1 e
  omega

/-- A word below 340 is at least 0, signed. -/
theorem sge_zero (t : BitVec 32) (ht : t.toNat < 340) : IntOp.cmpi .sge t 0#32 = 1#1 := by
  have h0 : (0#32 : BitVec 32).toNat = 0 := rfl
  exact (Predicate.sge_iff_toNat (a := t) (b := 0#32) (by omega) (by omega)).2 (by omega)

/-- A word below 340 is at most 339, signed. -/
theorem sle_339 (t : BitVec 32) (ht : t.toNat < 340) : IntOp.cmpi .sle t 339#32 = 1#1 := by
  have h0 : (339#32 : BitVec 32).toNat = 339 := rfl
  exact (Predicate.sle_iff_toNat (a := t) (b := 339#32) (by omega) (by omega)).2 (by omega)

/-- A word below 340 equals the word of a class number below 340 exactly when the numbers agree. -/
theorem eq_ofNat_iff (t : BitVec 32) (ht : t.toNat < 340) (b : Fin 340) :
    IntOp.cmpi .eq t (BitVec.ofNat 32 b.val) = 1#1 ↔ b.val = t.toNat := by
  rw [Predicate.cmpi_eq_iff]
  have hb : b.val < 340 := b.isLt
  constructor
  · intro e
    have := congrArg BitVec.toNat e
    rw [BitVec.toNat_ofNat] at this
    omega
  · intro e
    apply BitVec.eq_of_toNat_eq
    rw [BitVec.toNat_ofNat]
    omega

/-! ## A fold by "and" over bits that are all 1 -/

theorem foldl_andi_one {ι : Type} (f : ι → BitVec 1) (hf : ∀ n, f n = 1#1) :
    ∀ l : List ι, l.foldl (fun r n => IntOp.andi r (f n)) 1#1 = 1#1
  | [] => rfl
  | a :: l => by
    have h11 : IntOp.andi 1#1 1#1 = 1#1 := by decide
    rw [List.foldl_cons, hf a, h11]
    exact foldl_andi_one f hf l

/-- A reduction by "and" from 1 over an array whose every bit is 1 is 1 everywhere. -/
theorem reduce_andi_of_all {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_one x hx _

/-! ## The gather of one score per row -/

/-- The dimension numbers of "one element of each row": the operand's row axis batched with the start indices' row
    axis, its class axis collapsed and start-indexed, the index vector on the start indices' last axis. -/
abbrev rowDims (wf : GatherDims.WF ⟨2, ![65536, 340]⟩ ⟨3, ![65536, 1, 1]⟩ ⟨2, ![65536, 1]⟩ [] [1] [0] [1] [0] 2 ![1, 1]) :
    GatherDims ⟨2, ![65536, 340]⟩ ⟨3, ![65536, 1, 1]⟩ ⟨2, ![65536, 1]⟩ where
  offsetDims := []
  collapsedSliceDims := [1]
  operandBatchingDims := [0]
  startIndicesBatchingDims := [0]
  startIndexMap := [1]
  indexVectorDim := 2
  sliceSizes := ![1, 1]
  wf := wf

/-- A start index read signed and clamped into [0, 339]. -/
def clamp340 {w : Nat} (v : BitVec w) : Fin 340 := ⟨min v.toInt.toNat 339, by omega⟩

/-- For a word below 340 the clamp is the word's value. -/
theorem clamp340_of_lt (t : BitVec 32) (ht : t.toNat < 340) : clamp340 t = ⟨t.toNat, ht⟩ := by
  refine Fin.ext ?_
  show min t.toInt.toNat 339 = t.toNat
  have := Predicate.toInt_eq_toNat_of_lt (a := t) (by omega)
  omega

/-- Row a of the gather reads the operand's row a at the row's start index, read signed and clamped into [0, 339]. -/
theorem gather_row_apply {α : Type} {w : Nat}
    (wf : GatherDims.WF ⟨2, ![65536, 340]⟩ ⟨3, ![65536, 1, 1]⟩ ⟨2, ![65536, 1]⟩ [] [1] [0] [1] [0] 2 ![1, 1])
    (x : (⟨2, ![65536, 340]⟩ : Shape).Idx → α) (idx : IVec ⟨3, ![65536, 1, 1]⟩ w) (a : Fin 65536) (z : Fin 1) :
    Host.gather (rowDims wf) x idx (ix2 a z)
      = x (ix2 a (clamp340 (idx (ix3 a (0 : Fin 1) (0 : Fin 1))))) := by
  unfold Host.gather
  congr 1
  funext c
  refine Fin.ext ?_
  match c with
  | ⟨0, _⟩ =>
    show (rowDims wf).start (ix2 a z) idx 0 + (rowDims wf).batchCoord (ix2 a z) 0 + (rowDims wf).offCoord (ix2 a z) 0 = a.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    rfl
  | ⟨1, _⟩ =>
    show (rowDims wf).start (ix2 a z) idx 1 + (rowDims wf).batchCoord (ix2 a z) 1 + (rowDims wf).offCoord (ix2 a z) 1
      = min (idx (ix3 a (0 : Fin 1) (0 : Fin 1))).toInt.toNat 339
    rw [GatherDims.batchCoord_eq_zero _ _ _ (show (1 : Fin 2) ∉ ([0] : List (Fin 2)) from by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (rowDims wf).startIndexMap from List.mem_singleton.mpr rfl)]
    have hsi : (rowDims wf).siIdx (ix2 a z) ⟨List.idxOf (1 : Fin 2) (rowDims wf).startIndexMap,
        List.idxOf_lt_length_iff.2 (List.mem_singleton.mpr rfl)⟩ = ix3 a (0 : Fin 1) (0 : Fin 1) := by
      funext b; refine Fin.ext ?_
      match b with
      | ⟨0, _⟩ => rfl
      | ⟨1, _⟩ => exact (Nat.lt_one_iff.mp (Fin.isLt _))
      | ⟨2, _⟩ => rfl
    rw [hsi]
    rfl

/-! ## The reference's stages at an index -/

/-- The select that adds 340 to a negative index keeps a target in range: the start index of a row is its target. -/
theorem call0_v4_eq (x1 : IVec S65536 32) (h : ∀ i, (x1 i).toNat < 340) (i : S65536x1.Idx) :
    val_main_call0_v4 (F := Ideal) x1 i = x1 (idx_main_v0 i) := by
  rw [val_main_call0_v4_apply, val_main_call0_v1_apply, val_main_v0_apply, val_main_call0_v0_apply,
    val_main_call0_c_apply, slt_zero _ (h _), select_zero]

theorem call0_v5_eq (x1 : IVec S65536 32) (h : ∀ i, (x1 i).toNat < 340) (i : S65536x1x1.Idx) :
    val_main_call0_v5 (F := Ideal) x1 i = x1 (idx_main_v0 (idx_main_call0_v5 i)) := by
  rw [val_main_call0_v5_apply, call0_v4_eq x1 h]

/-- Every start index passes the range test 0 ≤ · ≤ 339. -/
theorem call0_v11_eq (x1 : IVec S65536 32) (h : ∀ i, (x1 i).toNat < 340) (i : S65536x1x1.Idx) :
    val_main_call0_v11 (F := Ideal) x1 i = 1#1 := by
  rw [val_main_call0_v11_apply, val_main_call0_v7_apply, val_main_call0_v10_apply, call0_v5_eq x1 h,
    val_main_call0_v6_apply, val_main_call0_c_2_apply, val_main_call0_v9_apply, val_main_call0_v8_apply,
    val_main_call0_c_1_apply, sge_zero _ (h _), sle_339 _ (h _)]
  decide

/-- So the in-range bit of every row is 1. -/
theorem call0_v12_eq (x1 : IVec S65536 32) (h : ∀ i, (x1 i).toNat < 340) (j : S65536x1.Idx) :
    val_main_call0_v12 (F := Ideal) x1 j = 1#1 :=
  reduce_andi_of_all _ _ _ _ (call0_v11_eq x1 h) rfl j

/-- The start index of row a sits at the row's place in the target array. -/
theorem start_idx (a : Fin 65536) : idx_main_v0 (idx_main_call0_v5 (ix3 a (0 : Fin 1) (0 : Fin 1))) = ix1 a := by
  funext c
  match c with
  | ⟨0, _⟩ => exact Fin.ext (by show ((a.val * 1 + 0) * 1 + 0) / 1 = a.val; omega)

/-- The gathered score of row a is the row's score at its target. -/
theorem call0_v13_eq (x0 : FVec Ideal S65536x340 .f32) (x1 : IVec S65536 32) (h : ∀ i, (x1 i).toNat < 340)
    (a : Fin 65536) (z : Fin 1) :
    val_main_call0_v13 (F := Ideal) x0 x1 (ix2 a z) = x0 (ix2 a (PairLoss.cls x1 h a)) := by
  show Host.gather (rowDims _) x0 (val_main_call0_v5 (F := Ideal) x1) (ix2 a z) = _
  rw [gather_row_apply, call0_v5_eq x1 h, start_idx, clamp340_of_lt _ (h _)]
  rfl

/-- The positive score of row a: the in-range select returns the gathered score. -/
theorem v1_eq (x0 : FVec Ideal S65536x340 .f32) (x1 : IVec S65536 32) (h : ∀ i, (x1 i).toNat < 340)
    (a : Fin 65536) (z : Fin 1) :
    val_main_v1 (F := Ideal) x0 x1 (ix2 a z) = x0 (ix2 a (PairLoss.cls x1 h a)) := by
  rw [val_main_v1_apply, call0_v12_eq x1 h, select_one, call0_v13_eq x0 x1 h]

theorem v5_idx (a : Fin 65536) (b : Fin 340) : idx_main_v5 (ix2 a b) = ix2 a (0 : Fin 1) := by
  funext c
  match c with
  | ⟨0, _⟩ => rfl
  | ⟨1, _⟩ => rfl

/-- The one-hot entry at (a, b) is 1 at the row's target and 0 elsewhere. -/
theorem v2_eq (x1 : IVec S65536 32) (h : ∀ i, (x1 i).toNat < 340) (a : Fin 65536) (b : Fin 340) :
    val_main_v2 (F := Ideal) x1 (ix2 a b) = if b = PairLoss.cls x1 h a then (1 : EReal) else 0 := by
  rw [val_main_v2_apply, val_main_call1_v4_apply, val_main_call1_v2_apply, val_main_call1_v0_apply,
    val_main_call1_v3_apply, val_main_call1_v1_apply]
  have hidx : idx_main_call1_v0 (idx_main_call1_v2 (ix2 a b)) = ix1 a := by
    funext c
    match c with
    | ⟨0, _⟩ => rfl
  rw [hidx]
  show FloatOps.uitofp (F := Ideal) .f32 (IntOp.cmpi .eq (x1 (ix1 a)) (BitVec.ofNat 32 b.val)) = _
  by_cases hb : b = PairLoss.cls x1 h a
  · rw [if_pos hb, (eq_ofNat_iff _ (h _) b).2 (congrArg Fin.val hb)]
    show (((1#1 : BitVec 1).toNat : ℝ) : EReal) = 1
    simp
  · rw [if_neg hb, eq_zero_of_ne_one (fun e => hb (Fin.ext ((eq_ofNat_iff _ (h _) b).1 e)))]
    show (((0#1 : BitVec 1).toNat : ℝ) : EReal) = 0
    simp

/-- The word 0x3F800000 denotes 1. -/
theorem one_bits : Ideal.ofBits .f32 0x3F800000#32 = 1 := by
  simp [Ideal.ofBits, Ideal.ieee, -EReal.coe_mul]; norm_num

/-- The mask at (a, b): 1 minus the one-hot entry. -/
theorem v4_eq (x1 : IVec S65536 32) (h : ∀ i, (x1 i).toNat < 340) (a : Fin 65536) (b : Fin 340) :
    val_main_v4 (F := Ideal) x1 (ix2 a b) = 1 - if b = PairLoss.cls x1 h a then (1 : EReal) else 0 := by
  rw [val_main_v4_apply, val_main_v3_apply, val_main_cst_apply, v2_eq x1 h]
  show Ideal.ofBits .f32 0x3F800000#32 - _ = _
  rw [one_bits]

/-- The element at (a, b): exp (x a b - x a y) times the mask, y the target of row a. -/
theorem v8_eq (x0 : FVec Ideal S65536x340 .f32) (x1 : IVec S65536 32) (h : ∀ i, (x1 i).toNat < 340)
    (a : Fin 65536) (b : Fin 340) :
    val_main_v8 (F := Ideal) x0 x1 (ix2 a b)
      = Ideal.exp (x0 (ix2 a b) - x0 (ix2 a (PairLoss.cls x1 h a)))
        * (1 - if b = PairLoss.cls x1 h a then (1 : EReal) else 0) := by
  rw [val_main_v8_apply, val_main_v7_apply, val_main_v6_apply, val_main_v5_apply, v5_idx, v1_eq x0 x1 h, v4_eq x1 h]
  rfl

/-- THE REFERENCE'S VALUE: under targets in [0, 340) the reference returns the pairwise exponential loss. -/
theorem ref_value (x0 : FVec Ideal Cert.ReferenceIdeal.S65536x340 .f32) (x1 : IVec Cert.ReferenceIdeal.S65536 32)
    (h : ∀ i, (x1 i).toNat < 340) :
    Cert.ReferenceIdeal.Read.val_main_v10 (F := Ideal) x0 x1 = fun _ => PairLoss.loss x0 x1 h := by
  funext i
  rw [val_main_v10_apply, val_main_v9_apply, val_main_cst_0_apply]
  have hs : ∑ j : S65536x340.Idx, val_main_v8 (F := Ideal) x0 x1 j
      = ∑ a : Fin 65536, PairLoss.maskedRow x0 (PairLoss.cls x1 h a) a := by
    rw [sum_idx2]
    refine Finset.sum_congr rfl fun a _ => ?_
    unfold PairLoss.maskedRow
    exact Finset.sum_congr rfl fun b _ => v8_eq x0 x1 h a b
  rw [hs]
  simp only [Ideal.hostUnary_log1p_def, Ideal.ofBits_def, Ideal.ofBits_zero_f32]
  rfl

end Cert.RefLoss

end
-- ==== Proof.lean ====
/-
  The certificate of the tiled pairwise exponential loss against its plain reference.

  Both programs compute loss = log (1 + ∑_a ∑_{b ≠ t_a} exp (x a b - x a t_a)) of scores x : [65536, 340] and targets
  t : [65536], under the precondition that every score is finite and every target lies in [0, 340).

  The reference masks the class t_a out of each row's sum with 1 - onehot. The kernel factors each row's sum as
  (∑_b exp (x a b)) · exp (-x a t_a) - 1, sums 4096 rows per grid point into a 1×1 accumulator carried over the eight
  points of each of two core halves, and the host adds the two halves and applies log (1 + ·). On real scores the
  factored row term is the masked one (exp (u - v) = exp u · exp (-v), and the excluded term is exp 0 = 1), and the
  order in which finitely many extended reals are added does not matter; so the two results are one extended real.

  The three frames are the generated ones (the reference's its run with the result dropped); the idealisation rewrote
  nothing; the algebraic claim puts the kernel's run (module Final) beside the reference's run read at an index
  (module RefValue) at the same value PairLoss.loss.
-/
import proofs.«423445_j85830626443704_2_alg».proof.Defs
import proofs.«423445_j85830626443704_2_alg».proof.Proof.Gen.Kernel
import proofs.«423445_j85830626443704_2_alg».proof.Proof.Gen.Kernel.Frame
import proofs.«423445_j85830626443704_2_alg».proof.Proof.Gen.KernelIdeal
import proofs.«423445_j85830626443704_2_alg».proof.Proof.Gen.KernelIdeal.Frame
import proofs.«423445_j85830626443704_2_alg».proof.Proof.Gen.ReferenceIdeal
import proofs.«423445_j85830626443704_2_alg».proof.Proof.Gen.Pre_finite_inputs
import proofs.«423445_j85830626443704_2_alg».proof.Proof.Domain
import proofs.«423445_j85830626443704_2_alg».proof.Proof.Final
import proofs.«423445_j85830626443704_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end at the loss of the agreed argument arrays. -/
theorem algebraic : Cert.algebraic_KernelIdeal_ReferenceIdeal := by
  intro m ρ m' ρ' hpre hagree
  have hd := fun c => Cert.Domain.of_pre _ _ (hpre c)
  refine ⟨fun c => fun _ => PairLoss.loss (Cert.KernelIdeal.Acc.scores m c) (Cert.KernelIdeal.Acc.targets m c) (hd c).2, ?_, ?_⟩
  · exact (θ_run Cert.KernelIdeal.defs _ _).mono
      (fun r h c => ⟨(h c).1.trans (Cert.KernelIdeal.Acc.value_eq m c (hd c).1 (hd c).2), (h c).2⟩)
      (Cert.KernelIdeal.Acc.run m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v10_eq, (hagree c).1, (hagree c).2]
    exact Cert.RefLoss.ref_value _ _ (hd c).2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
